-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel

variable [Facts]

def fn {F : FTy → Type} [FloatOps F] (main_arg0 : FVec F S16x8x512x512 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  main_v3
-- ==== Kernel.lean ====
abbrev S16x8x512x512 : Shape := ⟨4, ![16, 8, 512, 512]⟩
abbrev S128x512x512 : Shape := ⟨3, ![128, 512, 512]⟩
abbrev S4x512x512 : Shape := ⟨3, ![4, 512, 512]⟩

abbrev nBuf : Space → Nat
  | .hbm => 4
  | .vmem => 4
  | .smem => 0
  | _ => 0

abbrev bufTy : (tb : Table) → Fin (tcTables nBuf tb) → BufTy
  | .hbm, ⟨0, _⟩ => ⟨S16x8x512x512, .f32⟩
  | .hbm, ⟨1, _⟩ => ⟨S128x512x512, .f32⟩
  | .hbm, ⟨2, _⟩ => ⟨S128x512x512, .f32⟩
  | .hbm, ⟨3, _⟩ => ⟨S16x8x512x512, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x8x512x512_S128x512x512 : S16x8x512x512.ShapeCasts S128x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  iota_S4x512x512_d1_w32 : S4x512x512.Iotas .tc 32 [1]
  iota_S4x512x512_d2_w32 : S4x512x512.Iotas .tc 32 [2]
  rotates_S4x512x512_d2 : S4x512x512.Rotates 2 none
  rotates_S4x512x512_d1 : S4x512x512.Rotates 1 none
  shapeCasts_S128x512x512_S16x8x512x512 : S128x512x512.ShapeCasts S16x8x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S128x512x512.size a
  hwx0_0 : ∀ i : grid0.Coords, EltTy.bits .f32 = 32 ∨ (Rect.block (s := S128x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S128x512x512.size a
  hwx0_1 : ∀ i : grid0.Coords, EltTy.bits .f32 = 32 ∨ (Rect.block (s := S128x512x512) S4x512x512.size (cc0_transform_1 i) (hinb0_1 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S_ : Shape := ⟨0, ![]⟩
abbrev S16x8x514x514 : Shape := ⟨4, ![16, 8, 514, 514]⟩

abbrev nBuf : Space → Nat
  | .hbm => 48
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S_, .f32⟩
  | .hbm, ⟨2, _⟩ => ⟨S_, .f32⟩
  | .hbm, ⟨3, _⟩ => ⟨S16x8x514x514, .f32⟩
  | .hbm, ⟨4, _⟩ => ⟨S16x8x512x512, .f32⟩
  | .hbm, ⟨5, _⟩ => ⟨S_, .f32⟩
  | .hbm, ⟨6, _⟩ => ⟨S16x8x512x512, .f32⟩
  | .hbm, ⟨7, _⟩ => ⟨S16x8x512x512, .f32⟩
  | .hbm, ⟨8, _⟩ => ⟨S16x8x512x512, .f32⟩
  | .hbm, ⟨9, _⟩ => ⟨S_, .f32⟩
  | .hbm, ⟨10, _⟩ => ⟨S16x8x512x512, .f32⟩
  | .hbm, ⟨11, _⟩ => ⟨S16x8x512x512, .f32⟩
  | .hbm, ⟨12, _⟩ => ⟨S16x8x512x512, .f32⟩
  | .hbm, ⟨13, _⟩ => ⟨S16x8x512x512, .f32⟩
  | .hbm, ⟨14, _⟩ => ⟨S_, .f32⟩
  | .hbm, ⟨15, _⟩ => ⟨S16x8x512x512, .f32⟩
  | .hbm, ⟨16, _⟩ => ⟨S16x8x512x512, .f32⟩
  | .hbm, ⟨17, _⟩ => ⟨S16x8x512x512, .f32⟩
  | .hbm, ⟨18, _⟩ => ⟨S16x8x512x512, .f32⟩
  | .hbm, ⟨19, _⟩ => ⟨S_, .f32⟩
  | .hbm, ⟨20, _⟩ => ⟨S16x8x512x512, .f32⟩
  | .hbm, ⟨21, _⟩ => ⟨S16x8x512x512, .f32⟩
  | .hbm, ⟨22, _⟩ => ⟨S16x8x512x512, .f32⟩
  | .hbm, ⟨23, _⟩ => ⟨S16x8x512x512, .f32⟩
  | .hbm, ⟨24, _⟩ => ⟨S_, .f32⟩
  | .hbm, ⟨25, _⟩ => ⟨S16x8x512x512, .f32⟩
  | .hbm, ⟨26, _⟩ => ⟨S16x8x512x512, .f32⟩
  | .hbm, ⟨27, _⟩ => ⟨S16x8x512x512, .f32⟩
  | .hbm, ⟨28, _⟩ => ⟨S16x8x512x512, .f32⟩
  | .hbm, ⟨29, _⟩ => ⟨S_, .f32⟩
  | .hbm, ⟨30, _⟩ => ⟨S16x8x512x512, .f32⟩
  | .hbm, ⟨31, _⟩ => ⟨S16x8x512x512, .f32⟩
  | .hbm, ⟨32, _⟩ => ⟨S16x8x512x512, .f32⟩
  | .hbm, ⟨33, _⟩ => ⟨S16x8x512x512, .f32⟩
  | .hbm, ⟨34, _⟩ => ⟨S_, .f32⟩
  | .hbm, ⟨35, _⟩ => ⟨S16x8x512x512, .f32⟩
  | .hbm, ⟨36, _⟩ => ⟨S16x8x512x512, .f32⟩
  | .hbm, ⟨37, _⟩ => ⟨S16x8x512x512, .f32⟩
  | .hbm, ⟨38, _⟩ => ⟨S16x8x512x512, .f32⟩
  | .hbm, ⟨39, _⟩ => ⟨S_, .f32⟩
  | .hbm, ⟨40, _⟩ => ⟨S16x8x512x512, .f32⟩
  | .hbm, ⟨41, _⟩ => ⟨S16x8x512x512, .f32⟩
  | .hbm, ⟨42, _⟩ => ⟨S16x8x512x512, .f32⟩
  | .hbm, ⟨43, _⟩ => ⟨S16x8x512x512, .f32⟩
  | .hbm, ⟨44, _⟩ => ⟨S_, .f32⟩
  | .hbm, ⟨45, _⟩ => ⟨S16x8x512x512, .f32⟩
  | .hbm, ⟨46, _⟩ => ⟨S16x8x512x512, .f32⟩
  | .hbm, ⟨47, _⟩ => ⟨S16x8x512x512, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  pads_S16x8x512x512_S16x8x514x514_000_000_110_110 : S16x8x512x512.Pads (![0, 0, 1, 1] : Fin 4 → Nat) ![0, 0, 1, 1] ![0, 0, 0, 0] S16x8x514x514
  h_S_ : 0 < S_.numel
  slices_S16x8x514x514_S16x8x512x512_0_0_0_0 : S16x8x514x514.Slices ![0, 0, 0, 0] S16x8x512x512
  bcast_S_S16x8x512x512 : S_.BroadcastsInDim S16x8x512x512 (![] : Fin 0 → Fin S16x8x512x512.rank)
  slices_S16x8x514x514_S16x8x512x512_0_0_0_1 : S16x8x514x514.Slices ![0, 0, 0, 1] S16x8x512x512
  slices_S16x8x514x514_S16x8x512x512_0_0_0_2 : S16x8x514x514.Slices ![0, 0, 0, 2] S16x8x512x512
  slices_S16x8x514x514_S16x8x512x512_0_0_1_0 : S16x8x514x514.Slices ![0, 0, 1, 0] S16x8x512x512
  slices_S16x8x514x514_S16x8x512x512_0_0_1_1 : S16x8x514x514.Slices ![0, 0, 1, 1] S16x8x512x512
  slices_S16x8x514x514_S16x8x512x512_0_0_1_2 : S16x8x514x514.Slices ![0, 0, 1, 2] S16x8x512x512
  slices_S16x8x514x514_S16x8x512x512_0_0_2_0 : S16x8x514x514.Slices ![0, 0, 2, 0] S16x8x512x512
  slices_S16x8x514x514_S16x8x512x512_0_0_2_1 : S16x8x514x514.Slices ![0, 0, 2, 1] S16x8x512x512
  slices_S16x8x514x514_S16x8x512x512_0_0_2_2 : S16x8x514x514.Slices ![0, 0, 2, 2] S16x8x512x512

variable [Facts₀]

class Facts : Prop extends Facts₀ where

variable [Facts]
-- ==== Proof.Bordered.lean ====
/-
  Grey-scale dilation by a 3 x 3 square, plane by plane.

  A plane is a 512 x 512 array.  Give it a border one cell wide all round, every border cell holding the same
  value `z`; the dilated plane holds at cell (y, x) the greatest of the nine bordered cells (y + r, x + c),
  r, c in {0, 1, 2} (bordered coordinates: the plane's own cell (u, v) sits at (u + 1, v + 1)).  The planes of a
  stack do not interact, so the dilation of a sub-stack is the sub-stack of the dilation.

  The nine values can be combined in any order when the combining operation is associative and commutative;
  two orders are named here, and shown equal for `max` on the extended reals.
-/
import Idealize.ShloMosaic.PureOps.Ideal
import Idealize.ShloMosaic.Lib.ValueIdx

namespace Dilation

open Idealize.ShloMosaic Idealize.ShloMosaic.ValueIdx

variable {α : Type}

/-- A stack of `N` planes of 512 x 512 cells. -/
abbrev Planes (N : ℕ) : Shape := ⟨3, ![N, 512, 512]⟩

/-- Plane `q` of the stack `a`, bordered by one cell of `z` all round, read at the bordered coordinates `(i, j)`:
    the plane's cell `(i - 1, j - 1)` when both coordinates lie in `1 .. 512`, the border value otherwise. -/
def bordered {N : ℕ} (z : α) (a : (Planes N).Idx → α) (q : Fin N) (i j : ℕ) : α :=
  if h : (1 ≤ i ∧ i ≤ 512) ∧ (1 ≤ j ∧ j ≤ 512) then a (ix3 q ⟨i - 1, by omega⟩ ⟨j - 1, by omega⟩) else z

/-- Inside the plane the bordered read is the plane's cell. -/
theorem bordered_inside {N : ℕ} (z : α) (a : (Planes N).Idx → α) (q : Fin N) (u v : Fin 512) :
    bordered z a q (u.val + 1) (v.val + 1) = a (ix3 q u v) := by
  unfold bordered
  rw [dif_pos ⟨⟨by omega, by omega⟩, ⟨by omega, by omega⟩⟩]
  rfl

/-- On the border the bordered read is the border value. -/
theorem bordered_outside {N : ℕ} (z : α) (a : (Planes N).Idx → α) (q : Fin N) (i j : ℕ)
    (h : ¬((1 ≤ i ∧ i ≤ 512) ∧ (1 ≤ j ∧ j ≤ 512))) : bordered z a q i j = z := by
  unfold bordered
  rw [dif_neg h]

/-- Two stacks that agree on a plane have the same bordered plane there. -/
theorem bordered_congr {N M : ℕ} (z : α) (a : (Planes N).Idx → α) (b : (Planes M).Idx → α) (q : Fin N) (q' : Fin M)
    (hab : ∀ u v : Fin 512, a (ix3 q u v) = b (ix3 q' u v)) (i j : ℕ) : bordered z a q i j = bordered z b q' i j := by
  unfold bordered
  split
  · exact hab _ _
  · rfl

/-- Nine values `f r c`, `r, c ∈ {0, 1, 2}`, combined a row at a time, the middle row first, then the upper, then
    the lower, and within a row the middle value, then the left, then the right. -/
def nineMiddleFirst (mx : α → α → α) (f : ℕ → ℕ → α) : α :=
  mx (mx (mx (mx (f 1 1) (f 1 0)) (f 1 2)) (mx (mx (f 0 1) (f 0 0)) (f 0 2))) (mx (mx (f 2 1) (f 2 0)) (f 2 2))

/-- The same nine values combined one after the other in reading order. -/
def nineReadingOrder (mx : α → α → α) (f : ℕ → ℕ → α) : α :=
  mx (mx (mx (mx (mx (mx (mx (mx (f 0 0) (f 0 1)) (f 0 2)) (f 1 0)) (f 1 1)) (f 1 2)) (f 2 0)) (f 2 1)) (f 2 2)

/-- The greatest of nine extended reals does not depend on the order they are compared in. -/
theorem nineMiddleFirst_max (f : ℕ → ℕ → EReal) : nineMiddleFirst max f = nineReadingOrder max f := by
  unfold nineMiddleFirst nineReadingOrder
  ac_rfl

/-- The dilation of a stack: each cell the combination of the nine bordered cells around it. -/
def dilate {N : ℕ} (mx : α → α → α) (z : α) (a : (Planes N).Idx → α) : (Planes N).Idx → α :=
  fun k => nineMiddleFirst mx fun r c => bordered z a (k 0) ((k 1).val + r) ((k 2).val + c)

/-- The dilation read at explicit coordinates. -/
theorem dilate_apply {N : ℕ} (mx : α → α → α) (z : α) (a : (Planes N).Idx → α) (q : Fin N) (y x : Fin 512) :
    dilate mx z a (ix3 q y x) = nineMiddleFirst mx fun r c => bordered z a q (y.val + r) (x.val + c) := rfl

/-- Planes do not interact: where two stacks agree on a plane their dilations agree on it. -/
theorem dilate_congr {N M : ℕ} (mx : α → α → α) (z : α) (a : (Planes N).Idx → α) (b : (Planes M).Idx → α)
    (q : Fin N) (q' : Fin M) (hab : ∀ u v : Fin 512, a (ix3 q u v) = b (ix3 q' u v)) (y x : Fin 512) :
    dilate mx z a (ix3 q y x) = dilate mx z b (ix3 q' y x) := by
  rw [dilate_apply, dilate_apply]
  unfold nineMiddleFirst
  simp only [bordered_congr z a b q q' hab]

/-- The same at two indices given only by their coordinates: equal rows and columns, and planes on which the stacks agree. -/
theorem dilate_congr_idx {N M : ℕ} (mx : α → α → α) (z : α) (a : (Planes N).Idx → α) (b : (Planes M).Idx → α)
    (k : (Planes N).Idx) (k' : (Planes M).Idx) (h1 : (k 1).val = (k' 1).val) (h2 : (k 2).val = (k' 2).val)
    (hab : ∀ u v : Fin 512, a (ix3 (k 0) u v) = b (ix3 (k' 0) u v)) :
    dilate mx z a k = dilate mx z b k' := by
  unfold dilate nineMiddleFirst
  simp only [h1, h2, bordered_congr z a b (k 0) (k' 0) hab]

end Dilation
-- ==== Proof.Shifts.lean ====
/-
  A stack of planes rotated along its rows or its columns, and masked along an edge, read at explicit coordinates.

  Rotating by one along an axis of length 512 brings to position `x` the cell at `x - 1`, and rotating by 511 the cell
  at `x + 1`, both round the end.  Replacing the one column (or row) where the rotation wrapped round by a constant
  `z` turns the rotated stack into the stack shifted by one cell with `z` entering at the edge: in bordered
  coordinates, the same plane read one column (or row) further left or right (up or down).
-/
import Idealize.ShloMosaic.Lib.KernelVsHost
import Idealize.ShloMosaic.Lib.Pipeline.Value
import proofs.«153272_j84902913507553_1_alg».proof.Proof.Bordered

namespace Dilation

open Idealize.ShloMosaic Idealize.ShloMosaic.ValueIdx

variable {α : Type} {N : ℕ}

/-! ## Rotations -/

/-- Rotated by one along the columns, position `x` holds the cell of column `x - 1` (column 511 at `x = 0`). -/
theorem rotate_cols_one (v : (Planes N).Idx → α) (h : (Planes N).Rotates 2 none) (q : Fin N) (y x : Fin 512) :
    dynamicRotate 2 1#32 none v h (ix3 q y x) = v (ix3 q y ⟨(x.val + 511) % 512, Nat.mod_lt _ (by decide)⟩) := by
  refine dynamicRotate_apply 2 1#32 v h _ _ (fun b => ?_)
  match b with
  | ⟨0, _⟩ => rfl
  | ⟨1, _⟩ => rfl
  | ⟨2, _⟩ =>
    show (x.val + 511) % 512 = (x.val + 512 - (1#32).toNat % 512) % 512
    have e : (1#32).toNat = 1 := rfl
    rw [e]
    have := x.isLt
    omega

/-- Rotated by 511 along the columns, position `x` holds the cell of column `x + 1` (column 0 at `x = 511`). -/
theorem rotate_cols_back (v : (Planes N).Idx → α) (h : (Planes N).Rotates 2 none) (q : Fin N) (y x : Fin 512) :
    dynamicRotate 2 511#32 none v h (ix3 q y x) = v (ix3 q y ⟨(x.val + 1) % 512, Nat.mod_lt _ (by decide)⟩) := by
  refine dynamicRotate_apply 2 511#32 v h _ _ (fun b => ?_)
  match b with
  | ⟨0, _⟩ => rfl
  | ⟨1, _⟩ => rfl
  | ⟨2, _⟩ =>
    show (x.val + 1) % 512 = (x.val + 512 - (511#32).toNat % 512) % 512
    have e : (511#32).toNat = 511 := rfl
    rw [e]
    have := x.isLt
    omega

/-- Rotated by one along the rows, position `y` holds the cell of row `y - 1` (row 511 at `y = 0`). -/
theorem rotate_rows_one (v : (Planes N).Idx → α) (h : (Planes N).Rotates 1 none) (q : Fin N) (y x : Fin 512) :
    dynamicRotate 1 1#32 none v h (ix3 q y x) = v (ix3 q ⟨(y.val + 511) % 512, Nat.mod_lt _ (by decide)⟩ x) := by
  refine dynamicRotate_apply 1 1#32 v h _ _ (fun b => ?_)
  match b with
  | ⟨0, _⟩ => rfl
  | ⟨2, _⟩ => rfl
  | ⟨1, _⟩ =>
    show (y.val + 511) % 512 = (y.val + 512 - (1#32).toNat % 512) % 512
    have e : (1#32).toNat = 1 := rfl
    rw [e]
    have := y.isLt
    omega

/-- Rotated by 511 along the rows, position `y` holds the cell of row `y + 1` (row 0 at `y = 511`). -/
theorem rotate_rows_back (v : (Planes N).Idx → α) (h : (Planes N).Rotates 1 none) (q : Fin N) (y x : Fin 512) :
    dynamicRotate 1 511#32 none v h (ix3 q y x) = v (ix3 q ⟨(y.val + 1) % 512, Nat.mod_lt _ (by decide)⟩ x) := by
  refine dynamicRotate_apply 1 511#32 v h _ _ (fun b => ?_)
  match b with
  | ⟨0, _⟩ => rfl
  | ⟨2, _⟩ => rfl
  | ⟨1, _⟩ =>
    show (y.val + 1) % 512 = (y.val + 512 - (511#32).toNat % 512) % 512
    have e : (511#32).toNat = 511 := rfl
    rw [e]
    have := y.isLt
    omega

/-! ## Edge masks -/

/-- Two coordinates below 512, as 32-bit words, compare equal exactly when they are equal. -/
theorem cmpi_eq_word (a k : ℕ) (ha : a < 512) (hk : k < 512) :
    IntOp.cmpi .eq (BitVec.ofNat 32 a) (BitVec.ofNat 32 k) = 1#1 ↔ a = k := by
  show BitVec.ofBool (BitVec.ofNat 32 a == BitVec.ofNat 32 k) = 1#1 ↔ a = k
  constructor
  · intro h
    by_contra hne
    have hb : (BitVec.ofNat 32 a == BitVec.ofNat 32 k) = false := by
      rw [beq_eq_false_iff_ne]
      intro e
      have := congrArg BitVec.toNat e
      simp only [BitVec.toNat_ofNat] at this
      omega
    rw [hb] at h
    exact absurd h (by decide)
  · rintro rfl
    rw [beq_self_eq_true]
    rfl

/-- A value replaced by `z` in column `k` and kept elsewhere. -/
theorem mask_col (hi : (Planes N).Iotas .tc 32 [2]) (k : ℕ) (hk : k < 512) (z : α) (w : (Planes N).Idx → α)
    (q : Fin N) (y x : Fin 512) :
    select (cmpi .eq (iota .tc (Planes N) 32 [2] hi) (broadcast (Planes N) (BitVec.ofNat 32 k))) (broadcast (Planes N) z) w (ix3 q y x)
      = if x.val = k then z else w (ix3 q y x) := by
  show Scalar.select (IntOp.cmpi .eq (iota .tc (Planes N) 32 [2] hi (ix3 q y x)) (BitVec.ofNat 32 k)) z (w (ix3 q y x)) = _
  rw [iota_single_apply]
  unfold Scalar.select
  exact if_congr (cmpi_eq_word x.val k x.isLt hk) rfl rfl

/-- A value replaced by `z` in row `k` and kept elsewhere. -/
theorem mask_row (hi : (Planes N).Iotas .tc 32 [1]) (k : ℕ) (hk : k < 512) (z : α) (w : (Planes N).Idx → α)
    (q : Fin N) (y x : Fin 512) :
    select (cmpi .eq (iota .tc (Planes N) 32 [1] hi) (broadcast (Planes N) (BitVec.ofNat 32 k))) (broadcast (Planes N) z) w (ix3 q y x)
      = if y.val = k then z else w (ix3 q y x) := by
  show Scalar.select (IntOp.cmpi .eq (iota .tc (Planes N) 32 [1] hi (ix3 q y x)) (BitVec.ofNat 32 k)) z (w (ix3 q y x)) = _
  rw [iota_single_apply]
  unfold Scalar.select
  exact if_congr (cmpi_eq_word y.val k y.isLt hk) rfl rfl

end Dilation
-- ==== Proof.KernelBody.lean ====
/-
  What the kernel's body stores, read cell by cell.

  The body loads a stack X of four planes and stores one stack.  It builds, by a rotation along the rows masked at
  the wrapped row, the stack shifted down by one row (`above`: each cell holds the cell above it, the top row the
  border value -2) and the stack shifted up (`below`); and for each of the three stacks X, `above X`, `below X`, by
  rotations along the columns masked at the wrapped column, the cell's left and right neighbours in the same way.
  The stored value is the maximum of those nine.  Read in the coordinates of the plane bordered by -2, the nine
  are the cells (y + r, x + c), r, c ∈ {0, 1, 2}: the stored stack is the dilation of X.
-/
import proofs.«153272_j84902913507553_1_alg».proof.Proof.Gen.KernelIdeal.Skeleton
import proofs.«153272_j84902913507553_1_alg».proof.Proof.Shifts

noncomputable section

namespace Cert.KernelIdeal.Body

open Cert.KernelIdeal Cert.KernelIdeal.Gen Idealize.ShloMosaic Idealize.ShloMosaic.ValueIdx Dilation

variable {F : FTy → Type} [FloatOps F]

/-- The border value: the float whose word is that of -2. -/
def border : F .f32 := Scalar.ofBits .f32 0xC0000000#32

/-- Each cell's left neighbour, the border value in column 0. -/
def leftOf (v : FVec F S4x512x512 .f32) : FVec F S4x512x512 .f32 :=
  select (cmpi .eq (iota .tc S4x512x512 32 [2] iota_S4x512x512_d2_w32) (broadcast S4x512x512 0#32))
    (broadcast S4x512x512 (border (F := F))) (dynamicRotate 2 1#32 none v rotates_S4x512x512_d2)

/-- Each cell's right neighbour, the border value in column 511. -/
def rightOf (v : FVec F S4x512x512 .f32) : FVec F S4x512x512 .f32 :=
  select (cmpi .eq (iota .tc S4x512x512 32 [2] iota_S4x512x512_d2_w32) (broadcast S4x512x512 511#32))
    (broadcast S4x512x512 (border (F := F))) (dynamicRotate 2 511#32 none v rotates_S4x512x512_d2)

/-- The cell above each cell, the border value in row 0. -/
def above (v : FVec F S4x512x512 .f32) : FVec F S4x512x512 .f32 :=
  select (cmpi .eq (iota .tc S4x512x512 32 [1] iota_S4x512x512_d1_w32) (broadcast S4x512x512 0#32))
    (broadcast S4x512x512 (border (F := F))) (dynamicRotate 1 1#32 none v rotates_S4x512x512_d1)

/-- The cell below each cell, the border value in row 511. -/
def below (v : FVec F S4x512x512 .f32) : FVec F S4x512x512 .f32 :=
  select (cmpi .eq (iota .tc S4x512x512 32 [1] iota_S4x512x512_d1_w32) (broadcast S4x512x512 511#32))
    (broadcast S4x512x512 (border (F := F))) (dynamicRotate 1 511#32 none v rotates_S4x512x512_d1)

/-- The maximum of a cell, its left and its right neighbour. -/
def rowMax (v : FVec F S4x512x512 .f32) : FVec F S4x512x512 .f32 :=
  maximumf (maximumf v (leftOf v)) (rightOf v)

/-- The body's cast of the loaded stack to its own shape changes nothing. -/
theorem pay2_eq (x0 : Vec F S4x512x512 .f32) : k0_pay2 x0 = x0 := shapeCast_self _ _

/-- The stored value is the maximum of the three row maxima: of the stack, of the stack above and of the stack below. -/
theorem stored_eq (x0 : Vec F S4x512x512 .f32) :
    k0_pay1 (iota .tc S4x512x512 32 [2] iota_S4x512x512_d2_w32) (k0_pay3 x0) (k0_pay4 x0) k0_pay5 (k0_pay6 (F := F))
      = maximumf (maximumf (rowMax x0) (rowMax (above x0))) (rowMax (below x0)) := by
  unfold k0_pay1 k0_pay3 k0_pay4 k0_pay5 k0_pay6
  simp only [pay2_eq]
  rfl

section Read

variable (X : FVec F S4x512x512 .f32) (q : Fin 4)

/-- A cell of the stack is the bordered plane one row and one column in. -/
theorem self_read (y x : Fin 512) : X (ix3 q y x) = bordered (border (F := F)) X q (y.val + 1) (x.val + 1) :=
  (bordered_inside _ X q y x).symm

/-- The stack above, in bordered coordinates: the same column, one row up. -/
theorem above_read (y x : Fin 512) : above X (ix3 q y x) = bordered (border (F := F)) X q (y.val + 0) (x.val + 1) := by
  refine (mask_row (N := 4) iota_S4x512x512_d1_w32 0 (by decide) border _ q y x).trans ?_
  have hy := y.isLt
  split
  · rename_i h
    exact (bordered_outside _ X q _ _ (by omega)).symm
  · rename_i h
    refine (rotate_rows_one (N := 4) X rotates_S4x512x512_d1 q y x).trans ?_
    rw [self_read X q]
    show bordered _ X q ((y.val + 511) % 512 + 1) (x.val + 1) = _
    rw [show (y.val + 511) % 512 + 1 = y.val + 0 by omega]

/-- The stack below, in bordered coordinates: the same column, one row down. -/
theorem below_read (y x : Fin 512) : below X (ix3 q y x) = bordered (border (F := F)) X q (y.val + 2) (x.val + 1) := by
  refine (mask_row (N := 4) iota_S4x512x512_d1_w32 511 (by decide) border _ q y x).trans ?_
  have hy := y.isLt
  split
  · rename_i h
    exact (bordered_outside _ X q _ _ (by omega)).symm
  · rename_i h
    refine (rotate_rows_back (N := 4) X rotates_S4x512x512_d1 q y x).trans ?_
    rw [self_read X q]
    show bordered _ X q ((y.val + 1) % 512 + 1) (x.val + 1) = _
    rw [show (y.val + 1) % 512 + 1 = y.val + 2 by omega]

variable (v : FVec F S4x512x512 .f32) (r : ℕ)

/-- The left neighbours of a stack that is the bordered plane `r` rows down: one column further left. -/
theorem leftOf_read (hv : ∀ y x : Fin 512, v (ix3 q y x) = bordered (border (F := F)) X q (y.val + r) (x.val + 1))
    (y x : Fin 512) : leftOf v (ix3 q y x) = bordered (border (F := F)) X q (y.val + r) (x.val + 0) := by
  refine (mask_col (N := 4) iota_S4x512x512_d2_w32 0 (by decide) border _ q y x).trans ?_
  have hx := x.isLt
  split
  · rename_i h
    exact (bordered_outside _ X q _ _ (by omega)).symm
  · rename_i h
    refine (rotate_cols_one (N := 4) v rotates_S4x512x512_d2 q y x).trans ?_
    rw [hv]
    show bordered _ X q (y.val + r) ((x.val + 511) % 512 + 1) = _
    rw [show (x.val + 511) % 512 + 1 = x.val + 0 by omega]

/-- Its right neighbours: one column further right. -/
theorem rightOf_read (hv : ∀ y x : Fin 512, v (ix3 q y x) = bordered (border (F := F)) X q (y.val + r) (x.val + 1))
    (y x : Fin 512) : rightOf v (ix3 q y x) = bordered (border (F := F)) X q (y.val + r) (x.val + 2) := by
  refine (mask_col (N := 4) iota_S4x512x512_d2_w32 511 (by decide) border _ q y x).trans ?_
  have hx := x.isLt
  split
  · rename_i h
    exact (bordered_outside _ X q _ _ (by omega)).symm
  · rename_i h
    refine (rotate_cols_back (N := 4) v rotates_S4x512x512_d2 q y x).trans ?_
    rw [hv]
    show bordered _ X q (y.val + r) ((x.val + 1) % 512 + 1) = _
    rw [show (x.val + 1) % 512 + 1 = x.val + 2 by omega]

/-- The row maximum of such a stack: the maximum of three bordered cells of row `y + r`. -/
theorem rowMax_read (hv : ∀ y x : Fin 512, v (ix3 q y x) = bordered (border (F := F)) X q (y.val + r) (x.val + 1))
    (y x : Fin 512) :
    rowMax v (ix3 q y x) = FloatOps.maximumf (FloatOps.maximumf (bordered (border (F := F)) X q (y.val + r) (x.val + 1))
      (bordered (border (F := F)) X q (y.val + r) (x.val + 0))) (bordered (border (F := F)) X q (y.val + r) (x.val + 2)) := by
  show FloatOps.maximumf (FloatOps.maximumf (v (ix3 q y x)) (leftOf v (ix3 q y x))) (rightOf v (ix3 q y x)) = _
  rw [hv, leftOf_read X q v r hv, rightOf_read X q v r hv]

end Read

/-- THE BODY'S STORE is the dilation of the loaded stack, with `maximumf` for the maximum and the word of -2 for the border. -/
theorem stored_dilate (x0 : Vec F S4x512x512 .f32) :
    k0_pay1 (iota .tc S4x512x512 32 [2] iota_S4x512x512_d2_w32) (k0_pay3 x0) (k0_pay4 x0) k0_pay5 (k0_pay6 (F := F))
      = dilate (N := 4) (FloatOps.maximumf (F := F) (φ := .f32)) border x0 := by
  rw [stored_eq]
  funext k
  obtain ⟨q, y, x, rfl⟩ : ∃ (q : Fin 4) (y x : Fin 512), k = ix3 q y x := ⟨k 0, k 1, k 2, eq_ix3 k⟩
  rw [dilate_apply]
  unfold nineMiddleFirst
  beta_reduce
  show FloatOps.maximumf (FloatOps.maximumf (rowMax x0 (ix3 q y x)) (rowMax (above x0) (ix3 q y x))) (rowMax (below x0) (ix3 q y x)) = _
  rw [rowMax_read x0 q x0 1 (self_read x0 q), rowMax_read x0 q (above x0) 0 (above_read x0 q),
    rowMax_read x0 q (below x0) 2 (below_read x0 q)]

end Cert.KernelIdeal.Body

end
-- ==== Proof.KernelStack.lean ====
/-
  The array the kernel's program returns.

  The program views the image's 16 x 8 planes as one stack of 128 (a row-major reshape), runs the kernel over a
  grid of 32 points, point t loading planes 4 t .. 4 t + 3 of the stack and writing back the same planes of the
  output stack, and views the output stack as 16 x 8 planes again.  Each point writes the dilation of its four
  planes; planes do not interact, so that is planes 4 t .. 4 t + 3 of the dilation of the whole stack; the 32
  blocks cover the output stack; so the output stack is the dilation of the input stack.
-/
import proofs.«153272_j84902913507553_1_alg».proof.Proof.Gen.KernelIdeal.Frame
import proofs.«153272_j84902913507553_1_alg».proof.Proof.KernelBody
import Idealize.ShloMosaic.Lib.Pipeline.Value
import Idealize.ShloMosaic.Lib.StableHlo.Run

noncomputable section

namespace Cert.KernelIdeal.Stack

open Cert.KernelIdeal Cert.KernelIdeal.Gen Cert.KernelIdeal.Body
open Idealize.ShloMosaic Idealize.ShloMosaic.TcCoe Idealize.SL.Sem Idealize.ShloMosaic.ValueIdx Idealize.ShloMosaic.StableHlo Dilation
open Idealize.ShloMosaic.Pipeline (Dat)

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

/-- The stack of 128 planes as the region finds it. -/
abbrev inStack (c : Dev nD) : Vec F S128x512x512 .f32 := V m c main_v0

/-- The four planes point `t` loads. -/
abbrev planes (c : Dev nD) (t : Fin cfg0.N) : Vec F S4x512x512 .f32 := iblk m c 0 t

/-- Both windows' block at point `t` is block `t` along the plane axis and the whole of the other two axes. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Plane `p` of point `t`'s load is plane `4 t + p` of the stack. -/
theorem planes_apply (c : Dev nD) (t : Fin cfg0.N) (p : Fin 4) (u v : Fin 512) (k : S128x512x512.Idx)
    (hk0 : (k 0).val = 4 * t.val + p.val) (hk1 : (k 1).val = u.val) (hk2 : (k 2).val = v.val) :
    planes m c t (ix3 p u v) = inStack m c k := by
  obtain ⟨e0, e1, e2, -, -, -⟩ := idx_facts t
  show iblk m c 0 t (ix3 p u v) = V m c main_v0 k
  unfold iblk
  rw [View.read_apply]
  show V m c main_v0 _ = V m c main_v0 k
  congr 1
  funext a
  apply Fin.ext
  match a with
  | ⟨0, _⟩ => show win0_0.index t (0 : Fin 3) * 4 + 1 * p.val = (k 0).val; rw [e0, hk0]; omega
  | ⟨1, _⟩ => show win0_0.index t (1 : Fin 3) * 512 + 1 * u.val = (k 1).val; rw [e1, hk1]; omega
  | ⟨2, _⟩ => show win0_0.index t (2 : Fin 3) * 512 + 1 * v.val = (k 2).val; rw [e2, hk2]; omega

/-- WHAT POINT `t` WRITES BACK is block `t` of the dilation of the whole input stack. -/
theorem flushed_eq (c : Dev nD) (t : Fin cfg0.N) :
    (dats m 0 c).flushed 1 t = ((cfg0.win 1).blk t).view.read (Elt F)
      (dilate (N := 128) (FloatOps.maximumf (F := F) (φ := .f32)) border (inStack m c)) := by
  show (cfg0.win 1).cut (grid0.coords t) ((dats m 0 c).after 1 t) = _
  rw [after0_1]
  unfold out0_1
  rw [View.canon_unit_zero hz]
  simp only [View.ld_unit_zero (S := S4x512x512) hz]
  rw [stored_dilate (iblk m c 0 t)]
  obtain ⟨-, -, -, e0, e1, e2⟩ := idx_facts t
  funext j
  show dilate (N := 4) (FloatOps.maximumf (F := F) (φ := .f32)) border (planes m c t) ((cfg0.win 1).xinj (grid0.coords t) j)
    = dilate (N := 128) (FloatOps.maximumf (F := F) (φ := .f32)) border (inStack m c) (((cfg0.win 1).blk t).view.emb j)
  refine dilate_congr_idx _ _ _ _ _ _ ?_ ?_ (fun u v => ?_)
  · show (j 1).val = win0_1.index t (1 : Fin 3) * 512 + 1 * (j 1).val
    rw [e1]; omega
  · show (j 2).val = win0_1.index t (2 : Fin 3) * 512 + 1 * (j 2).val
    rw [e2]; omega
  · refine planes_apply m c t _ u v _ ?_ rfl rfl
    show win0_1.index t (0 : Fin 3) * 4 + 1 * (j 0).val = 4 * t.val + (j 0).val
    rw [e0]; omega

/-- An index of the output stack is in point `t`'s block iff each coordinate is in the block's range. -/
theorem mem_blk (t : Fin cfg0.N) (i : S128x512x512.Idx) :
    i ∈ ((cfg0.win 1).blk t).view.set ↔ ∀ a : Fin 3, win0_1.index t a * S4x512x512.size a ≤ (i a).val ∧ (i a).val < win0_1.index t a * S4x512x512.size a + S4x512x512.size a := by
  show i ∈ ((View.whole main_v1).slice (win0_1.rect t)).set ↔ _
  rw [View.set_slice_whole, Rect.mem_set_unit]
  exact Iff.rfl

/-- Every plane of the output stack is written back by the point that holds it: plane `q` by point `q / 4`. -/
theorem cover (i : S128x512x512.Idx) :
    ∃ t : Fin cfg0.N, (cfg0.win 1).flush t = true ∧ i ∈ ((cfg0.win 1).blk t).view.set := by
  have hi0 : (i 0).val < 128 := (i 0).isLt
  have hi1 : (i 1).val < 512 := (i 1).isLt
  have hi2 : (i 2).val < 512 := (i 2).isLt
  have hN : cfg0.N = 32 := N_0
  let t : Fin cfg0.N := ⟨(i 0).val / 4, by rw [hN]; omega⟩
  have ht : t.val = (i 0).val / 4 := rfl
  refine ⟨t, flush0_1 t, ?_⟩
  rw [mem_blk]
  obtain ⟨-, -, -, e0, e1, e2⟩ := idx_facts t
  intro a
  match a with
  | ⟨0, _⟩ => show win0_1.index t (0 : Fin 3) * 4 ≤ (i 0).val ∧ (i 0).val < win0_1.index t (0 : Fin 3) * 4 + 4; rw [e0, ht]; omega
  | ⟨1, _⟩ => show win0_1.index t (1 : Fin 3) * 512 ≤ (i 1).val ∧ (i 1).val < win0_1.index t (1 : Fin 3) * 512 + 512; rw [e1]; omega
  | ⟨2, _⟩ => show win0_1.index t (2 : Fin 3) * 512 ≤ (i 2).val ∧ (i 2).val < win0_1.index t (2 : Fin 3) * 512 + 512; rw [e2]; omega

/-- THE OUTPUT STACK after the run is the dilation of the input stack. -/
theorem final (c : Dev nD) :
    (dats m 0 c).arrAt 1 cfg0.N = dilate (N := 128) (FloatOps.maximumf (F := F) (φ := .f32)) border (inStack m c) :=
  (dats m 0 c).arrAt_eq_of_cover 1 _ (fun t _ => flushed_eq m c t) cover

/-- The input stack is the image, its planes taken row-major. -/
theorem inStack_eq (c : Dev nD) :
    inStack m c = shapeCast S128x512x512 (m ((c : Thread nD τ).loc main_arg0)) shapeCasts_S16x8x512x512_S128x512x512 := by
  show StableHlo.after hostOps0 (fun b => m (c, b)) (Proc.devRef .tc main_v0) = _
  after_results
  rfl

/-- The program's result: the output stack viewed as 16 x 8 planes. -/
theorem result_eq (c : Dev nD) :
    Pipeline.afterTail₀ cfgs (dats m) 0 (V0 m) [hostOps1] c main_v2
      = shapeCast S16x8x512x512 (dilate (N := 128) (FloatOps.maximumf (F := F) (φ := .f32)) border
          (shapeCast S128x512x512 (m ((c : Thread nD τ).loc main_arg0)) shapeCasts_S16x8x512x512_S128x512x512))
          shapeCasts_S128x512x512_S16x8x512x512 := by
  unfold Pipeline.afterTail₀
  show StableHlo.after hostOps1 _ (Proc.devRef .tc main_v2) = _
  after_results
  rw [(Pipeline.withArrays_arr spec0 launch0.win.arr_inj c _ _ 1).trans (final m c), inStack_eq m c]
  rfl

/-- THE RUN, read: the result at the reshaped dilation of the reshaped image, the image unchanged. -/
theorem run : θ_run defs (onTc (τ := τ) (main (F := F))) ⟨m, fun _ => 0, ρ⟩ fun r => ∀ c : Dev nD,
      r.2.mem ((c : Thread nD τ).loc main_v2)
        = shapeCast S16x8x512x512 (dilate (N := 128) (FloatOps.maximumf (F := F) (φ := .f32)) border
            (shapeCast S128x512x512 (m ((c : Thread nD τ).loc main_arg0)) shapeCasts_S16x8x512x512_S128x512x512))
            shapeCasts_S128x512x512_S16x8x512x512
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Stack

end
-- ==== Proof.RefRead.lean ====
/-
  The reference, read cell by cell.

  The reference pads every 512 x 512 plane of the image with one cell of -2 all round, takes the nine 512 x 512
  windows of the padded plane at offsets (r, c), r, c ∈ {0, 1, 2}, adds the constant 0 to each, and takes their
  maximum one after the other in reading order.  The image's 16 x 8 planes, laid out row-major, are one stack of
  128 planes (plane 8 n + ch the image's plane (n, ch)); the padded plane read at (i, j) is the stack's bordered
  plane there, so at cell (y, x) of plane (n, ch) the reference holds the reading-order combination of
  (bordered cell (y + r, x + c)) + 0.
-/
import proofs.«153272_j84902913507553_1_alg».proof.Proof.Gen.ReferenceIdeal.Read
import Idealize.ShloMosaic.Lib.KernelVsHost
import Idealize.ShloMosaic.PureOps.Ideal.Laws
import proofs.«153272_j84902913507553_1_alg».proof.Proof.Bordered

noncomputable section

namespace Cert.ReferenceIdeal.RefValue

open Cert.ReferenceIdeal Cert.ReferenceIdeal.Gen Cert.ReferenceIdeal.Read Idealize.ShloMosaic Idealize.ShloMosaic.ValueIdx Dilation

variable {F : FTy → Type} [FloatOps F]

/-- The image's planes, row-major, are a stack of 128. -/
theorem casts : S16x8x512x512.ShapeCasts (Planes 128) := by decide

/-- Plane `8 n + ch` of the stack is the image's plane `(n, ch)`. -/
theorem stack_read {α : Type} (a : S16x8x512x512.Idx → α) (n : Fin 16) (ch : Fin 8) (u v : Fin 512) :
    shapeCast (Planes 128) a casts (ix3 ⟨8 * n.val + ch.val, by omega⟩ u v) = a (ix4 n ch u v) := by
  refine shapeCast_apply a casts _ _ ?_
  rw [Shape.rowMajor_val_four, Shape.rowMajor_val_three]
  show ((n.val * 8 + ch.val) * 512 + u.val) * 512 + v.val = ((8 * n.val + ch.val) * 512 + u.val) * 512 + v.val
  omega

/-- THE PADDED IMAGE read at `(n, ch, i, j)` is plane `8 n + ch` of the stack, bordered by the padding value. -/
theorem pad_read (a : (⟨S16x8x512x512, .f32⟩ : BufTy).Contents (Elt F)) (n : Fin 16) (ch : Fin 8) (i j : Fin 514) :
    val_main_v0 (F := F) a (ix4 n ch i j)
      = bordered (FloatOps.ofBits (F := F) .f32 0xC0000000#32) (shapeCast (Planes 128) a casts) ⟨8 * n.val + ch.val, by omega⟩ i.val j.val := by
  unfold val_main_v0
  have hi := i.isLt
  have hj := j.isLt
  by_cases hin : (1 ≤ i.val ∧ i.val ≤ 512) ∧ (1 ≤ j.val ∧ j.val ≤ 512)
  · unfold bordered
    rw [dif_pos hin, stack_read]
    refine pad_apply_of_inside _ _ _ a _ _ h_S_ (ix4 n ch i j) (ix4 n ch ⟨i.val - 1, by omega⟩ ⟨j.val - 1, by omega⟩) (fun b => ?_)
    match b with
    | ⟨0, _⟩ => show n.val = 0 + n.val * (0 + 1); omega
    | ⟨1, _⟩ => show ch.val = 0 + ch.val * (0 + 1); omega
    | ⟨2, _⟩ => show i.val = 1 + (i.val - 1) * (0 + 1); omega
    | ⟨3, _⟩ => show j.val = 1 + (j.val - 1) * (0 + 1); omega
  · rw [bordered_outside _ _ _ _ _ hin]
    by_cases hi' : 1 ≤ i.val ∧ i.val ≤ 512
    · refine (pad_apply_of_not_inside _ _ _ a _ _ h_S_ (ix4 n ch i j) ⟨3, by decide⟩ ?_).trans rfl
      show ¬(1 ≤ j.val ∧ (j.val - 1) % (0 + 1) = 0 ∧ (j.val - 1) / (0 + 1) < 512)
      rintro ⟨h1, -, h3⟩
      rw [Nat.zero_add, Nat.div_one] at h3
      omega
    · refine (pad_apply_of_not_inside _ _ _ a _ _ h_S_ (ix4 n ch i j) ⟨2, by decide⟩ ?_).trans rfl
      show ¬(1 ≤ i.val ∧ (i.val - 1) % (0 + 1) = 0 ∧ (i.val - 1) / (0 + 1) < 512)
      rintro ⟨h1, -, h3⟩
      rw [Nat.zero_add, Nat.div_one] at h3
      omega

/-- The padded image at any index whose coordinates are `(n, ch, y + r, x + c)`. -/
theorem window_read (a : (⟨S16x8x512x512, .f32⟩ : BufTy).Contents (Elt F)) (n : Fin 16) (ch : Fin 8) (y x : Fin 512) (r c : ℕ)
    (hr : r ≤ 2) (hc : c ≤ 2) (k : S16x8x514x514.Idx) (h0 : (k 0).val = n.val) (h1 : (k 1).val = ch.val) (h2 : (k 2).val = y.val + r) (h3 : (k 3).val = x.val + c) :
    val_main_v0 (F := F) a k
      = bordered (FloatOps.ofBits (F := F) .f32 0xC0000000#32) (shapeCast (Planes 128) a casts) ⟨8 * n.val + ch.val, by omega⟩ (y.val + r) (x.val + c) := by
  have hy := y.isLt
  have hx := x.isLt
  have e : k = ix4 n ch ⟨y.val + r, by omega⟩ ⟨x.val + c, by omega⟩ := by
    funext b
    match b with
    | ⟨0, _⟩ => exact Fin.ext h0
    | ⟨1, _⟩ => exact Fin.ext h1
    | ⟨2, _⟩ => exact Fin.ext h2
    | ⟨3, _⟩ => exact Fin.ext h3
  have hp := pad_read a n ch ⟨y.val + r, by omega⟩ ⟨x.val + c, by omega⟩
  rw [← e] at hp
  exact hp

/-- THE REFERENCE at cell `(y, x)` of plane `(n, ch)`: the nine bordered cells round it, each plus the constant 0,
    combined in reading order. -/
theorem ref_read (a : (⟨S16x8x512x512, .f32⟩ : BufTy).Contents (Elt F)) (n : Fin 16) (ch : Fin 8) (y x : Fin 512) :
    val_main_v35 (F := F) a (ix4 n ch y x)
      = nineReadingOrder (FloatOps.maximumf (F := F) (φ := .f32)) fun r c =>
          FloatOps.addf (bordered (FloatOps.ofBits (F := F) .f32 0xC0000000#32) (shapeCast (Planes 128) a casts) ⟨8 * n.val + ch.val, by omega⟩ (y.val + r) (x.val + c))
            (FloatOps.ofBits (F := F) .f32 0x00000000#32) := by
  unfold nineReadingOrder
  beta_reduce
  simp only [val_main_v35_apply, val_main_v31_apply, val_main_v27_apply, val_main_v23_apply, val_main_v19_apply, val_main_v15_apply,
    val_main_v11_apply, val_main_v7_apply, val_main_v34_apply, val_main_v30_apply, val_main_v26_apply, val_main_v22_apply,
    val_main_v18_apply, val_main_v14_apply, val_main_v10_apply, val_main_v6_apply, val_main_v3_apply,
    val_main_v32_apply, val_main_v28_apply, val_main_v24_apply, val_main_v20_apply, val_main_v16_apply, val_main_v12_apply,
    val_main_v8_apply, val_main_v4_apply, val_main_v1_apply,
    val_main_v33_apply, val_main_v29_apply, val_main_v25_apply, val_main_v21_apply, val_main_v17_apply, val_main_v13_apply,
    val_main_v9_apply, val_main_v5_apply, val_main_v2_apply,
    val_main_cst_8_apply, val_main_cst_7_apply, val_main_cst_6_apply, val_main_cst_5_apply, val_main_cst_4_apply,
    val_main_cst_3_apply, val_main_cst_2_apply, val_main_cst_1_apply, val_main_cst_0_apply]
  rw [window_read a n ch y x 0 0 (by decide) (by decide) (idx_main_v1 (ix4 n ch y x)) rfl rfl rfl rfl,
    window_read a n ch y x 0 1 (by decide) (by decide) (idx_main_v4 (ix4 n ch y x)) rfl rfl rfl (Nat.add_comm _ _),
    window_read a n ch y x 0 2 (by decide) (by decide) (idx_main_v8 (ix4 n ch y x)) rfl rfl rfl (Nat.add_comm _ _),
    window_read a n ch y x 1 0 (by decide) (by decide) (idx_main_v12 (ix4 n ch y x)) rfl rfl (Nat.add_comm _ _) rfl,
    window_read a n ch y x 1 1 (by decide) (by decide) (idx_main_v16 (ix4 n ch y x)) rfl rfl (Nat.add_comm _ _) (Nat.add_comm _ _),
    window_read a n ch y x 1 2 (by decide) (by decide) (idx_main_v20 (ix4 n ch y x)) rfl rfl (Nat.add_comm _ _) (Nat.add_comm _ _),
    window_read a n ch y x 2 0 (by decide) (by decide) (idx_main_v24 (ix4 n ch y x)) rfl rfl (Nat.add_comm _ _) rfl,
    window_read a n ch y x 2 1 (by decide) (by decide) (idx_main_v28 (ix4 n ch y x)) rfl rfl (Nat.add_comm _ _) (Nat.add_comm _ _),
    window_read a n ch y x 2 2 (by decide) (by decide) (idx_main_v32 (ix4 n ch y x)) rfl rfl (Nat.add_comm _ _) (Nat.add_comm _ _)]

/-- At the exact values adding the constant 0 changes nothing and `maximumf` is the maximum of two extended reals: the
    reference holds the reading-order maximum of the nine bordered cells. -/
theorem ref_read_exact (a : (⟨S16x8x512x512, .f32⟩ : BufTy).Contents (Elt Ideal)) (n : Fin 16) (ch : Fin 8) (y x : Fin 512) :
    val_main_v35 (F := Ideal) a (ix4 n ch y x)
      = nineReadingOrder (max : EReal → EReal → EReal) fun r c =>
          bordered (FloatOps.ofBits (F := Ideal) .f32 0xC0000000#32) (shapeCast (Planes 128) a casts) ⟨8 * n.val + ch.val, by omega⟩ (y.val + r) (x.val + c) := by
  rw [ref_read]
  unfold nineReadingOrder
  simp only [Ideal.addf_def, Ideal.ofBits_def, Ideal.ofBits_zero_f32, add_zero]
  rfl

end Cert.ReferenceIdeal.RefValue

end
-- ==== Proof.Bridge.lean ====
/-
  The two results are one array.

  The kernel's program returns the 128-plane dilation of the image, viewed as 16 x 8 planes; the reference holds at
  cell (y, x) of plane (n, ch) the maximum of the nine bordered cells round it in plane 8 n + ch of the stack.
  The view as 16 x 8 planes reads plane 8 n + ch at (n, ch), the dilation there is the maximum of the same nine
  cells taken in another order, and the maximum of extended reals is associative and commutative.
-/
import proofs.«153272_j84902913507553_1_alg».proof.Proof.KernelStack
import proofs.«153272_j84902913507553_1_alg».proof.Proof.RefRead

noncomputable section

namespace Cert.Proof.Bridge

open Idealize.ShloMosaic Idealize.ShloMosaic.ValueIdx Dilation

/-- The reference's result is the kernel program's: the dilation of the image's planes, stacked and unstacked. -/
theorem result_eq (a : (⟨Cert.ReferenceIdeal.S16x8x512x512, .f32⟩ : BufTy).Contents (Elt Ideal)) :
    Cert.ReferenceIdeal.Read.val_main_v35 (F := Ideal) a
      = shapeCast Cert.KernelIdeal.S16x8x512x512
          (dilate (N := 128) (FloatOps.maximumf (F := Ideal) (φ := .f32)) Cert.KernelIdeal.Body.border
            (shapeCast Cert.KernelIdeal.S128x512x512 a Cert.KernelIdeal.Gen.shapeCasts_S16x8x512x512_S128x512x512))
          Cert.KernelIdeal.Gen.shapeCasts_S128x512x512_S16x8x512x512 := by
  funext i
  obtain ⟨n, ch, y, x, rfl⟩ : ∃ (n : Fin 16) (ch : Fin 8) (y x : Fin 512), i = ix4 n ch y x := ⟨i 0, i 1, i 2, i 3, eq_ix4 i⟩
  rw [Cert.ReferenceIdeal.RefValue.ref_read_exact]
  refine Eq.trans ?_ (shapeCast_apply _ _ (ix4 n ch y x) (ix3 ⟨8 * n.val + ch.val, by omega⟩ y x) ?_).symm
  · exact (nineMiddleFirst_max _).symm
  · rw [Shape.rowMajor_val_three, Shape.rowMajor_val_four]
    show ((8 * n.val + ch.val) * 512 + y.val) * 512 + x.val = ((n.val * 8 + ch.val) * 512 + y.val) * 512 + x.val
    omega

end Cert.Proof.Bridge

end
-- ==== Proof.lean ====
/- Morphological dilation by a 3 x 3 square of ones, a Pallas kernel against its jnp reference: the proof of `Cert.Claim`.

   Both programs compute, for every 512 x 512 plane of the image bordered by one cell of -2 all round, the maximum
   of the nine bordered cells round each cell.  The kernel takes the neighbours by rotating a stack of four planes
   along its rows and columns and masking the row or column where the rotation wrapped round; the reference pads
   the image, takes the nine shifted windows, adds the constant 0 to each and folds them with `maximum` in reading
   order.  Over the extended reals adding 0 changes nothing and the maximum is associative and commutative, so the
   two orders of the nine agree; no finiteness of the input is used.

   Proof/Bordered.lean    the bordered plane, the two orders of the nine values, the plane-wise dilation
   Proof/Shifts.lean      rotations and edge masks read at explicit coordinates
   Proof/KernelBody.lean  what the kernel's body stores is the dilation of what it loads
   Proof/KernelStack.lean the output stack after the run, and the program's result through its two reshapes
   Proof/RefRead.lean     the reference read cell by cell (its `pad` by hand, the rest from the generated reading lemmas)
   Proof/Bridge.lean      the two results are one array
   The three frames are the generated ones (the reference's is its generated run with the result dropped); the
   idealization rewrote nothing, so `preserves` is trivial. -/
import proofs.«153272_j84902913507553_1_alg».proof.Defs
import proofs.«153272_j84902913507553_1_alg».proof.Proof.Gen.Kernel
import proofs.«153272_j84902913507553_1_alg».proof.Proof.Gen.Kernel.Skeleton
import proofs.«153272_j84902913507553_1_alg».proof.Proof.Gen.Kernel.Launch
import proofs.«153272_j84902913507553_1_alg».proof.Proof.Gen.Kernel.Points
import proofs.«153272_j84902913507553_1_alg».proof.Proof.Gen.Kernel.Frame
import proofs.«153272_j84902913507553_1_alg».proof.Proof.Gen.KernelIdeal
import proofs.«153272_j84902913507553_1_alg».proof.Proof.Gen.KernelIdeal.Skeleton
import proofs.«153272_j84902913507553_1_alg».proof.Proof.Gen.KernelIdeal.Launch
import proofs.«153272_j84902913507553_1_alg».proof.Proof.Gen.KernelIdeal.Points
import proofs.«153272_j84902913507553_1_alg».proof.Proof.Gen.KernelIdeal.Frame
import proofs.«153272_j84902913507553_1_alg».proof.Proof.Gen.ReferenceIdeal
import proofs.«153272_j84902913507553_1_alg».proof.Proof.Gen.Pre_finite_inputs
import proofs.«153272_j84902913507553_1_alg».proof.Proof.Gen.ReferenceIdeal.Run
import proofs.«153272_j84902913507553_1_alg».proof.Proof.Gen.ReferenceIdeal.Read
import proofs.«153272_j84902913507553_1_alg».proof.Proof.Bridge
import Idealize.ShloMosaic.Adequacy
import Idealize.ShloMosaic.Init

noncomputable section

namespace Cert.Proof

open Idealize.ShloMosaic Idealize.SL.Sem Cert.Kernel

/-- The word-level kernel runs and leaves the image unchanged: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves the image unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's program ends at the stacked dilation of the image and the reference at the
    reading-order maximum of the nine padded windows, of images that agree: one array (`Bridge.result_eq`). -/
theorem algebraic : Cert.algebraic_KernelIdeal_ReferenceIdeal := by
  intro m ρ m' ρ' _ hagree
  refine ⟨_, Cert.KernelIdeal.Stack.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, hagree c]
  exact Cert.Proof.Bridge.result_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
